-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_quant" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S256x1 : Shape := ⟨2, ![256, 1]⟩
abbrev S256 : Shape := ⟨1, ![256]⟩
abbrev S1024x256 : Shape := ⟨2, ![1024, 256]⟩
abbrev S1024 : Shape := ⟨1, ![1024]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel
  bcast_S_S256x1 : S_.BroadcastsInDim S256x1 (![] : Fin 0 → Fin S256x1.rank)
  reducesTo_S256x1_S_d0_1 : S256x1.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S262144 .f32) (main_arg1 : FVec F S256x1 .f32) (main_arg2 : FVec F S256 .f32) (main_arg3 : FVec F S1024x256 .f32) (main_arg4 : FVec F S1024 .f32) : IVec S_ 1 :=
  let main_v0 : FVec F S262144 .f32 := Host.absf main_arg0
  let main_cst : FVec F S_ .f32 := constant S_ .f32 0x7F800000#32
  let main_v1 : FVec F S262144 .f32 := broadcastInDim S262144 ![] bcast_S_S262144 main_cst
  let main_v2 : IVec S262144 1 := cmpf .olt main_v0 main_v1
  let main_c : IVec S_ 1 := constantI S_ 1 1#1
  let main_v3 : IVec S_ 1 := (fun x v => Host.reduce IntOp.andi x v reducesTo_S262144_S_d0 h_S_) main_v2 main_c
  let main_v4 : FVec F S256x1 .f32 := Host.absf main_arg1
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_v13 main_v16
-- ==== Kernel.lean ====
abbrev S262144 : Shape := ⟨1, ![262144]⟩
abbrev S256x1 : Shape := ⟨2, ![256, 1]⟩
abbrev S256 : Shape := ⟨1, ![256]⟩
abbrev S1024x256 : Shape := ⟨2, ![1024, 256]⟩
abbrev S1024 : Shape := ⟨1, ![1024]⟩
abbrev S262144x1 : Shape := ⟨2, ![262144, 1]⟩
abbrev S1x256 : Shape := ⟨2, ![1, 256]⟩
abbrev S256x1024 : Shape := ⟨2, ![256, 1024]⟩
abbrev S1x1024 : Shape := ⟨2, ![1, 1024]⟩
abbrev S262144x1024 : Shape := ⟨2, ![262144, 1024]⟩
abbrev S2048x1 : Shape := ⟨2, ![2048, 1]⟩
abbrev S2048x1024 : Shape := ⟨2, ![2048, 1024]⟩
abbrev S2048x256 : Shape := ⟨2, ![2048, 256]⟩

abbrev nBuf : Space → Nat
  | .hbm => 12
  | .vmem => 8
  | .smem => 0
  | _ => 0

abbrev bufTy : (tb : Table) → Fin (tcTables nBuf tb) → BufTy
  | .hbm, ⟨0, _⟩ => ⟨S262144, .f32⟩
  | .hbm, ⟨1, _⟩ => ⟨S256x1, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S262144x1, .f32⟩
  | .hbm, ⟨6, _⟩ => ⟨S1x256, .f32⟩
  | .hbm, ⟨7, _⟩ => ⟨S1x256, .f32⟩
  | .hbm, ⟨8, _⟩ => ⟨S256x1024, .f32⟩
  | .hbm, ⟨9, _⟩ => ⟨S256x1024, .bf16⟩
  | .hbm, ⟨10, _⟩ => ⟨S1x1024, .f32⟩
  | .hbm, ⟨11, _⟩ => ⟨S262144x1024, .f32⟩
  | .local _ .vmem, ⟨0, _⟩ => ⟨S2048x1, .f32⟩
  | .local _ .vmem, ⟨1, _⟩ => ⟨S2048x1, .f32⟩
  | .local _ .vmem, ⟨2, _⟩ => ⟨S1x256, .f32⟩
  | .local _ .vmem, ⟨3, _⟩ => ⟨S1x256, .f32⟩
  | .local _ .vmem, ⟨4, _⟩ => ⟨S256x1024, .bf16⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S262144_S262144x1 : S262144.ShapeCasts S262144x1
  transposes_S256x1_S1x256_1_0 : S256x1.Transposes [1, 0] S1x256
  shapeCasts_S256_S1x256 : S256.ShapeCasts S1x256
  transposes_S1024x256_S256x1024_1_0 : S1024x256.Transposes [1, 0] S256x1024
  bitsLt_bf16_f32 : FTy.bits .bf16 < FTy.bits .f32
  shapeCasts_S1024_S1x1024 : S1024.ShapeCasts S1x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S2048x1_S2048x256 : S2048x1.Broadcasts S2048x256
  broadcasts_S1x256_S2048x256 : S1x256.Broadcasts S2048x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S262144x1.size a
  hwx0_0 : ∀ i : grid0.Coords, EltTy.bits .f32 = 32 ∨ (Rect.block (s := S262144x1) S2048x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S262144x1024.size a
  hwx0_5 : ∀ i : grid0.Coords, EltTy.bits .f32 = 32 ∨ (Rect.block (s := S262144x1024) S2048x1024.size (cc0_transform_5 i) (hinb0_5 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_v0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144 : Shape := ⟨1, ![262144]⟩
abbrev S256x1 : Shape := ⟨2, ![256, 1]⟩
abbrev S256 : Shape := ⟨1, ![256]⟩
abbrev S1024x256 : Shape := ⟨2, ![1024, 256]⟩
abbrev S1024 : Shape := ⟨1, ![1024]⟩
abbrev S_ : Shape := ⟨0, ![]⟩
abbrev S262144x1 : Shape := ⟨2, ![262144, 1]⟩
abbrev S1x256 : Shape := ⟨2, ![1, 256]⟩
abbrev S262144x256 : Shape := ⟨2, ![262144, 256]⟩
abbrev S256x1024 : Shape := ⟨2, ![256, 1024]⟩
abbrev S262144x1024 : Shape := ⟨2, ![262144, 1024]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S262144, .f32⟩
  | .hbm, ⟨1, _⟩ => ⟨S256x1, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S_, .f32⟩
  | .hbm, ⟨6, _⟩ => ⟨S262144, .f32⟩
  | .hbm, ⟨7, _⟩ => ⟨S262144, .f32⟩
  | .hbm, ⟨8, _⟩ => ⟨S262144, .f32⟩
  | .hbm, ⟨9, _⟩ => ⟨S_, .f32⟩
  | .hbm, ⟨10, _⟩ => ⟨S262144, .f32⟩
  | .hbm, ⟨11, _⟩ => ⟨S262144, .f32⟩
  | .hbm, ⟨12, _⟩ => ⟨S262144x1, .f32⟩
  | .hbm, ⟨13, _⟩ => ⟨S1x256, .f32⟩
  | .hbm, ⟨14, _⟩ => ⟨S262144x256, .f32⟩
  | .hbm, ⟨15, _⟩ => ⟨S1x256, .f32⟩
  | .hbm, ⟨16, _⟩ => ⟨S262144x256, .f32⟩
  | .hbm, ⟨17, _⟩ => ⟨S262144x256, .f32⟩
  | .hbm, ⟨18, _⟩ => ⟨S262144x256, .f32⟩
  | .hbm, ⟨19, _⟩ => ⟨S_, .f32⟩
  | .hbm, ⟨20, _⟩ => ⟨S262144x256, .f32⟩
  | .hbm, ⟨21, _⟩ => ⟨S262144x256, .f32⟩
  | .hbm, ⟨22, _⟩ => ⟨S256x1024, .f32⟩
  | .hbm, ⟨23, _⟩ => ⟨S262144x1024, .f32⟩
  | .hbm, ⟨24, _⟩ => ⟨S1x1024, .f32⟩
  | .hbm, ⟨25, _⟩ => ⟨S262144x1024, .f32⟩
  | .hbm, ⟨26, _⟩ => ⟨S262144x1024, .f32⟩
  | _, _ => ⟨S262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  transposes_S256x1_S1x256_1_0 : S256x1.Transposes [1, 0] S1x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S262144x1024_0_1 : S1x1024.BroadcastsInDim S262144x1024 (![0, 1] : Fin 2 → Fin S262144x1024.rank)
  dot_S262144x1_S1x256_S262144x256_1_0_0_1_n_n_wf : DotDims.WF S262144x1 S1x256 S262144x256 [1] [0] [0] [1] [] []
  dot_S262144x256_S256x1024_S262144x1024_1_0_0_1_n_n_wf : DotDims.WF S262144x256 S256x1024 S262144x1024 [1] [0] [0] [1] [] []

variable [Facts₀]

def dot_S262144x1_S1x256_S262144x256_1_0_0_1_n_n : DotDims S262144x1 S1x256 S262144x256 where
  lhsContracting := [1]
  rhsContracting := [0]
  lhsNonContracting := [0]
  rhsNonContracting := [1]
  lhsBatch := []
  rhsBatch := []
  wf := dot_S262144x1_S1x256_S262144x256_1_0_0_1_n_n_wf
def dot_S262144x256_S256x1024_S262144x1024_1_0_0_1_n_n : DotDims S262144x256 S256x1024 S262144x1024 where
  lhsContracting := [1]
  rhsContracting := [0]
  lhsNonContracting := [0]
  rhsNonContracting := [1]
  lhsBatch := []
  rhsBatch := []
  wf := dot_S262144x256_S256x1024_S262144x1024_1_0_0_1_n_n_wf

class Facts : Prop extends Facts₀ where

variable [Facts]
-- ==== Proof.Spec.lean ====
/-
  The timestamp-encoding layer as ONE function of its five argument arrays over the extended reals, and the one scalar
  law by which the two programs differ.

  For a batch row `b` and an output column `d`

      enc t wr br we be (b, d) = (∑ r < 256, max (cos (⌊t b / q⌋ · q · wr (r, 0) + br r)) 0 · we (d, r)) + be d,

  where `q` is the extended real the single-precision word 0x3DCCCCCD denotes, 13421773 / 2^27: the quantisation step.
  A timestamp is quantised to a multiple of `q`, goes through a 1 → 256 linear layer, a cosine and a rectifier, and then
  through a 256 → 1024 linear layer.

  Dividing by `q` is multiplying by its reciprocal 2^27 / 13421773 on EVERY extended real (the quotient by a nonzero real
  is the product with its inverse, at the infinities too), so a program that multiplies by that reciprocal quantises
  exactly as one that divides by `q`: no finiteness of the timestamp is used.
-/
import Idealize.ShloMosaic.PureOps.Ideal
import Idealize.ShloMosaic.PureOps.Ideal.Laws
import Idealize.ShloMosaic.Lib.ValueIdx

noncomputable section

namespace Cert.TimeEncoding

open Idealize.ShloMosaic Idealize.ShloMosaic.ValueIdx

/-- The quantisation step, as the word that spells it. -/
abbrev step : EReal := Ideal.ofBits .f32 0x3DCCCCCD#32

/-- The word 0x3DCCCCCD denotes 13421773 / 2^27 (sign 0, exponent 123, mantissa 0x4CCCCD). -/
theorem step_eq : Ideal.ofBits .f32 0x3DCCCCCD#32 = ((13421773 / 134217728 : ℝ) : EReal) := by
  simp [Ideal.ofBits, Ideal.ieee, -EReal.coe_mul]; norm_num

/-- The quotient by the step is the product with the step's reciprocal, on every extended real. -/
theorem div_step (x : EReal) : Ideal.div x step = x * ((134217728 / 13421773 : ℝ) : EReal) := by
  have e : (1 / (13421773 / 134217728) : ℝ) = 134217728 / 13421773 := by norm_num
  rw [step, step_eq, Ideal.div_coe (by norm_num), e]

/-- A timestamp quantised down to a multiple of the step. -/
def quantised (x : EReal) : EReal := Ideal.liftRound Int.floor (Ideal.div x step) * step

/-- One hidden unit: the rectified cosine of the quantised timestamp through the first linear layer. -/
def hidden (x w b : EReal) : EReal := max (Ideal.cos (quantised x * w + b)) 0

/-- The whole layer, index by index. -/
def enc (t : (⟨1, ![262144]⟩ : Shape).Idx → EReal) (wr : (⟨2, ![256, 1]⟩ : Shape).Idx → EReal)
    (br : (⟨1, ![256]⟩ : Shape).Idx → EReal) (we : (⟨2, ![1024, 256]⟩ : Shape).Idx → EReal)
    (be : (⟨1, ![1024]⟩ : Shape).Idx → EReal) : (⟨2, ![262144, 1024]⟩ : Shape).Idx → EReal :=
  fun i => (∑ r : Fin 256, hidden (t (ix1 (n := 262144) (i 0))) (wr (ix2 (n0 := 256) (n1 := 1) r 0)) (br (ix1 (n := 256) r))
      * we (ix2 (n0 := 1024) (n1 := 256) (i 1) r)) + be (ix1 (n := 1024) (i 1))

/-- The same hidden unit when the quantiser multiplies by the step's reciprocal instead of dividing by the step. -/
theorem hidden_of_mul (x w b : EReal) :
    max (Ideal.cos (Ideal.liftRound Int.floor (x * ((134217728 / 13421773 : ℝ) : EReal)) * step * w + b)) 0 = hidden x w b := by
  unfold hidden quantised
  rw [div_step]

end Cert.TimeEncoding

end
-- ==== Proof.Layout.lean ====
/-
  Two layout operations read at an index, over coordinates: a column `[a, 1]` broadcast across `b` columns, and a
  vector `[a]` recast as the column `[a, 1]`.
-/
import Idealize.ShloMosaic.Lib.Pipeline.Value
import Idealize.ShloMosaic.Lib.ValueIdx
import Idealize.ShloMosaic.Lib.ValueLayout

noncomputable section

namespace Cert.TimeEncoding

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.TimeEncoding

end
-- ==== Proof.KernelBody.lean ====
/-
  What the kernel's body stores, read at an entry `(p, q)` of its output block, as a function of its five loaded blocks:

      (∑ r < 256, hidden (x0 (p, 0)) (x1 (0, r)) (x2 (0, r)) · x3 (r, q)) + x4 (0, q).

  The body quantises its 2048 timestamps by the product with the named reciprocal of the step, broadcasts the column
  across the 256 hidden units and the two weight rows down the 2048 rows (so the first linear layer is an outer product,
  entry by entry), takes the cosine and the maximum with zero, and multiplies the 2048 × 256 result into the 256 × 1024
  weight block on the matrix unit from a zero accumulator: at the ideal values a plain sum over the 256 hidden units.
  Narrowing the hidden units to the half-width format is the identity on extended reals.
-/
import proofs.«104907_j352187318328_1_alg».proof.Proof.Gen.KernelIdeal.Skeleton
import proofs.«104907_j352187318328_1_alg».proof.Proof.Spec
import proofs.«104907_j352187318328_1_alg».proof.Proof.Layout
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.TimeEncoding.Body

open Cert.KernelIdeal Cert.KernelIdeal.Gen Idealize.ShloMosaic Idealize.ShloMosaic.ValueIdx Cert.TimeEncoding

/-! ## The matrix product's operand entries: rows × contraction against contraction × columns -/

theorem lhs_mm_0 (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
theorem lhs_mm_1 (i : S2048x1024.Idx) (q : dot_S2048x256_S256x1024_S2048x1024_1_0_0_1_n_n.contr.Idx) :
    (dot_S2048x256_S256x1024_S2048x1024_1_0_0_1_n_n.lhsIdx i q 1).val = (q ⟨0, by decide⟩).val :=
  dot_S2048x256_S256x1024_S2048x1024_1_0_0_1_n_n.lhsIdx_val_of_single rfl i q
theorem rhs_mm_0 (i : S2048x1024.Idx) (q : dot_S2048x256_S256x1024_S2048x1024_1_0_0_1_n_n.contr.Idx) :
    (dot_S2048x256_S256x1024_S2048x1024_1_0_0_1_n_n.rhsIdx i q 0).val = (q ⟨0, by decide⟩).val :=
  dot_S2048x256_S256x1024_S2048x1024_1_0_0_1_n_n.rhsIdx_val_of_single rfl i q
theorem rhs_mm_1 (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl

/-- The matrix product from a zero accumulator, at entry `(p, q)`: the sum over the contracted axis of row `p` of the left
    operand against column `q` of the right one. -/
theorem matmul_at (l : FVec Ideal S2048x256 .bf16) (r : FVec Ideal S256x1024 .bf16) (p : Fin 2048) (q : Fin 1024) :
    matmul dot_S2048x256_S256x1024_S2048x1024_1_0_0_1_n_n none l r (constant S2048x1024 .f32 0x00000000#32) (ix2 (n0 := 2048) (n1 := 1024) p q)
      = ∑ k : Fin 256, l (ix2 (n0 := 2048) (n1 := 256) p k) * r (ix2 (n0 := 256) (n1 := 1024) k q) := by
  simp only [matmul]
  rw [Ideal.matmul_constant_zero_apply, ← Equiv.sum_comp (contrEquiv1 dot_S2048x256_S256x1024_S2048x1024_1_0_0_1_n_n 256 rfl rfl).symm]
  refine Finset.sum_congr rfl fun k _ => ?_
  have hk := contrEquiv1_symm_val dot_S2048x256_S256x1024_S2048x1024_1_0_0_1_n_n 256 rfl rfl k
  have el : dot_S2048x256_S256x1024_S2048x1024_1_0_0_1_n_n.lhsIdx (ix2 (n0 := 2048) (n1 := 1024) p q) ((contrEquiv1 dot_S2048x256_S256x1024_S2048x1024_1_0_0_1_n_n 256 rfl rfl).symm k) = ix2 (n0 := 2048) (n1 := 256) p k := funext fun a => Fin.ext (by
    match a with
    | ⟨0, _⟩ => exact lhs_mm_0 _ _
    | ⟨1, _⟩ => exact (lhs_mm_1 _ _).trans hk)
  have er : dot_S2048x256_S256x1024_S2048x1024_1_0_0_1_n_n.rhsIdx (ix2 (n0 := 2048) (n1 := 1024) p q) ((contrEquiv1 dot_S2048x256_S256x1024_S2048x1024_1_0_0_1_n_n 256 rfl rfl).symm k) = ix2 (n0 := 256) (n1 := 1024) k q := funext fun a => Fin.ext (by
    match a with
    | ⟨0, _⟩ => exact (rhs_mm_0 _ _).trans hk
    | ⟨1, _⟩ => exact rhs_mm_1 _ _)
  rw [el, er]

/-! ## The named constant -/

/-- The body's multiplier is the reciprocal of the step: the name's value in the certificate's table. -/
theorem inv_step : Named.named (F := Ideal) κ "inv_quant" (φ := .f32) 0x41200000#32 = ((134217728 / 13421773 : ℝ) : EReal) :=
  IdealRules.named_const.ideal_named_scalar _ _ _ _ rfl

/-! ## The stored value at an entry -/

/-- The cosine of a vector, at an entry. -/
theorem cos_at {s : Shape} {φ : FTy} (a : FVec Ideal s φ) (i : s.Idx) : cos a i = Ideal.cos (a i) := rfl
/-- The floor of a vector, at an entry. -/
theorem floor_at {s : Shape} {φ : FTy} (a : FVec Ideal s φ) (i : s.Idx) : floor a i = Ideal.liftRound Int.floor (a i) := rfl

theorem pay_at (x0 : Vec Ideal S2048x1 .f32) (x1 x2 : Vec Ideal S1x256 .f32) (x3 : Vec Ideal S256x1024 .bf16)
    (x4 : Vec Ideal S1x1024 .f32) (p : Fin 2048) (q : Fin 1024) :
    k0_pay1 (F := Ideal) x0 x1 x2 x3 x4 (ix2 (n0 := 2048) (n1 := 1024) p q)
      = (∑ r : Fin 256, hidden (x0 (ix2 (n0 := 2048) (n1 := 1) p 0)) (x1 (ix2 (n0 := 1) (n1 := 256) 0 r)) (x2 (ix2 (n0 := 1) (n1 := 256) 0 r))
          * x3 (ix2 (n0 := 256) (n1 := 1024) r q)) + x4 (ix2 (n0 := 1) (n1 := 1024) 0 q) := by
  unfold k0_pay1
  simp only [shapeCast_self]
  -- the second layer: the sum over the hidden units, plus the bias row's entry of column `q`
  rw [addf_apply, matmul_at, broadcastTo_1b_ab_apply]
  refine congrArg (· + x4 (ix2 (n0 := 1) (n1 := 1024) 0 q)) (Finset.sum_congr rfl fun r _ => ?_)
  refine congrArg (· * x3 (ix2 (n0 := 256) (n1 := 1024) r q)) ?_
  -- hidden unit `r` of row `p`: narrowing is the identity, the rectifier's other operand the zero word
  rw [truncf_apply, maximumf_apply, broadcast_apply]
  rw [cos_at, addf_apply, mulf_apply, broadcastTo_a1_ab_apply, broadcastTo_1b_ab_apply, broadcastTo_1b_ab_apply]
  -- the quantised timestamp of row `p`: the floor of the product with the named reciprocal, times the step
  rw [mulf_apply, floor_at, mulf_apply, broadcast_apply, broadcast_apply, Ideal.ofBits_def, Ideal.ofBits_def, Ideal.ofBits_zero_f32, inv_step]
  exact hidden_of_mul _ _ _

end Cert.TimeEncoding.Body

end
-- ==== Proof.KernelValue.lean ====
/-
  The idealized kernel's run ends with its result array at the layer `enc` of its argument arrays.

  The launch walks 128 grid points. At point `t` the body sees rows `2048 t … 2048 t + 2047` of the timestamps (as a
  column) and, at every point, the same four whole blocks: the first layer's weights and bias as rows, the second
  layer's weights transposed, its bias as a row — each a reshape or transpose the host makes of an argument before the
  launch. What the body stores at entry `(p, q)` of its output block is therefore the layer's entry
  `(2048 t + p, q)`; the 128 output blocks are disjoint row bands that together tile the 262144 × 1024 result, so after
  the last point the result array is the layer at every index.
-/
import proofs.«104907_j352187318328_1_alg».proof.Proof.Gen.KernelIdeal.Value
import proofs.«104907_j352187318328_1_alg».proof.Proof.KernelBody
import Idealize.ShloMosaic.Lib.StableHlo.Run

noncomputable section

namespace Cert.TimeEncoding.Kernel

open Cert.KernelIdeal Cert.KernelIdeal.Gen Idealize.ShloMosaic Idealize.ShloMosaic.TcCoe Idealize.SL.Sem
open Idealize.ShloMosaic.StableHlo Idealize.ShloMosaic.ValueIdx Cert.TimeEncoding
open Idealize.ShloMosaic.Pipeline (Dat)

variable (m : (ℓ : Loc nD τ sig) → Buf (Elt Ideal) ℓ) (ρ : Dev nD → PrngReg)

/-! ## The arrays the region's windows read, as the host operations before it leave them -/

/-- The timestamps as a column. -/
theorem V_v0 (c : Dev nD) : (V m c main_v0 : S262144x1.Idx → EReal)
    = shapeCast S262144x1 (m ((c : Thread nD τ).loc main_arg0)) shapeCasts_S262144_S262144x1 := by
  dsimp only [Gen.V, Gen.hostOps0]; after_results <;> rfl

/-- The first layer's weights as a row. -/
theorem V_v1 (c : Dev nD) : (V m c main_v1 : S1x256.Idx → EReal)
    = transpose S1x256 [1, 0] (m ((c : Thread nD τ).loc main_arg1)) transposes_S256x1_S1x256_1_0 := by
  dsimp only [Gen.V, Gen.hostOps0]; after_results <;> rfl

/-- The first layer's bias as a row. -/
theorem V_v2 (c : Dev nD) : (V m c main_v2 : S1x256.Idx → EReal)
    = shapeCast S1x256 (m ((c : Thread nD τ).loc main_arg2)) shapeCasts_S256_S1x256 := by
  dsimp only [Gen.V, Gen.hostOps0]; after_results <;> rfl

/-- The second layer's weights transposed (and narrowed, which changes no extended real). -/
theorem V_v4 (c : Dev nD) : (V m c main_v4 : S256x1024.Idx → EReal)
    = transpose S256x1024 [1, 0] (m ((c : Thread nD τ).loc main_arg3)) transposes_S1024x256_S256x1024_1_0 := by
  dsimp only [Gen.V, Gen.hostOps0]; after_results <;> rfl

/-- The second layer's bias as a row. -/
theorem V_v5 (c : Dev nD) : (V m c main_v5 : S1x1024.Idx → EReal)
    = shapeCast S1x1024 (m ((c : Thread nD τ).loc main_arg4)) shapeCasts_S1024_S1x1024 := by
  dsimp only [Gen.V, Gen.hostOps0]; after_results <;> rfl

/-! ## Which block each window holds at a grid point -/

/-- The printed index maps, decided over the 128 grid points: the timestamps' window and the output's are at block row
    `t`; the four weight and bias windows stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the timestamps' block at point `t` is timestamp `2048 t + p`. -/
theorem tblk_at (c : Dev nD) (t : Fin cfg0.N) (p : Fin 2048) (b : Fin 262144) (hb : b.val = t.val * 2048 + p.val) :
    iblk m c 0 t (ix2 (n0 := 2048) (n1 := 1) p 0) = m ((c : Thread nD τ).loc main_arg0) (ix1 (n := 262144) b) := by
  show V m c main_v0 (((cfg0.win 0).blk t).view.emb (ix2 (n0 := 2048) (n1 := 1) p 0)) = _
  have h : ((cfg0.win 0).blk t).view.emb (ix2 (n0 := 2048) (n1 := 1) p 0) = ix2 (n0 := 262144) (n1 := 1) b 0 := by
    obtain ⟨e0, e1, -⟩ := idx_facts t
    funext a; apply Fin.ext
    match a with
    | ⟨0, _⟩ => show win0_0.index t (0 : Fin 2) * 2048 + 1 * p.val = b.val; omega
    | ⟨1, _⟩ => show win0_0.index t (1 : Fin 2) * 1 + 1 * 0 = 0; omega
  rw [h, V_v0, shapeCast_a_a1_apply]

/-- Entry `r` of the first layer's weight row is the weight column's entry `(r, 0)`. -/
theorem wblk_at (c : Dev nD) (t : Fin cfg0.N) (r : Fin 256) :
    iblk m c 1 t (ix2 (n0 := 1) (n1 := 256) 0 r) = m ((c : Thread nD τ).loc main_arg1) (ix2 (n0 := 256) (n1 := 1) r 0) := by
  show V m c main_v1 (((cfg0.win 1).blk t).view.emb (ix2 (n0 := 1) (n1 := 256) 0 r)) = _
  have h : ((cfg0.win 1).blk t).view.emb (ix2 (n0 := 1) (n1 := 256) 0 r) = ix2 (n0 := 1) (n1 := 256) 0 r := by
    obtain ⟨-, -, e0, e1, -⟩ := idx_facts t
    funext a; apply Fin.ext
    match a with
    | ⟨0, _⟩ => show win0_1.index t (0 : Fin 2) * 1 + 1 * 0 = 0; omega
    | ⟨1, _⟩ => show win0_1.index t (1 : Fin 2) * 256 + 1 * r.val = r.val; omega
  rw [h, V_v1, transpose_ix2_apply]

/-- Entry `r` of the first layer's bias row is the bias vector's entry `r`. -/
theorem bblk_at (c : Dev nD) (t : Fin cfg0.N) (r : Fin 256) :
    iblk m c 2 t (ix2 (n0 := 1) (n1 := 256) 0 r) = m ((c : Thread nD τ).loc main_arg2) (ix1 (n := 256) r) := by
  show V m c main_v2 (((cfg0.win 2).blk t).view.emb (ix2 (n0 := 1) (n1 := 256) 0 r)) = _
  have h : ((cfg0.win 2).blk t).view.emb (ix2 (n0 := 1) (n1 := 256) 0 r) = ix2 (n0 := 1) (n1 := 256) 0 r := by
    obtain ⟨-, -, -, -, e0, e1, -⟩ := idx_facts t
    funext a; apply Fin.ext
    match a with
    | ⟨0, _⟩ => show win0_2.index t (0 : Fin 2) * 1 + 1 * 0 = 0; omega
    | ⟨1, _⟩ => show win0_2.index t (1 : Fin 2) * 256 + 1 * r.val = r.val; omega
  rw [h, V_v2, shapeCast_a_1a_apply]

/-- Entry `(r, q)` of the second layer's weight block is the weight matrix's entry `(q, r)`. -/
theorem eblk_at (c : Dev nD) (t : Fin cfg0.N) (r : Fin 256) (q : Fin 1024) :
    iblk m c 3 t (ix2 (n0 := 256) (n1 := 1024) r q) = m ((c : Thread nD τ).loc main_arg3) (ix2 (n0 := 1024) (n1 := 256) q r) := by
  show V m c main_v4 (((cfg0.win 3).blk t).view.emb (ix2 (n0 := 256) (n1 := 1024) r q)) = _
  have h : ((cfg0.win 3).blk t).view.emb (ix2 (n0 := 256) (n1 := 1024) r q) = ix2 (n0 := 256) (n1 := 1024) r q := by
    obtain ⟨-, -, -, -, -, -, e0, e1, -⟩ := idx_facts t
    funext a; apply Fin.ext
    match a with
    | ⟨0, _⟩ => show win0_3.index t (0 : Fin 2) * 256 + 1 * r.val = r.val; omega
    | ⟨1, _⟩ => show win0_3.index t (1 : Fin 2) * 1024 + 1 * q.val = q.val; omega
  rw [h, V_v4, transpose_ix2_apply]

/-- Entry `q` of the second layer's bias row is the bias vector's entry `q`. -/
theorem cblk_at (c : Dev nD) (t : Fin cfg0.N) (q : Fin 1024) :
    iblk m c 4 t (ix2 (n0 := 1) (n1 := 1024) 0 q) = m ((c : Thread nD τ).loc main_arg4) (ix1 (n := 1024) q) := by
  show V m c main_v5 (((cfg0.win 4).blk t).view.emb (ix2 (n0 := 1) (n1 := 1024) 0 q)) = _
  have h : ((cfg0.win 4).blk t).view.emb (ix2 (n0 := 1) (n1 := 1024) 0 q) = ix2 (n0 := 1) (n1 := 1024) 0 q := by
    obtain ⟨-, -, -, -, -, -, -, -, e0, e1, -⟩ := idx_facts t
    funext a; apply Fin.ext
    match a with
    | ⟨0, _⟩ => show win0_4.index t (0 : Fin 2) * 1 + 1 * 0 = 0; omega
    | ⟨1, _⟩ => show win0_4.index t (1 : Fin 2) * 1024 + 1 * q.val = q.val; omega
  rw [h, V_v5, shapeCast_a_1a_apply]

/-! ## What a grid point writes back -/

theorem hz : (![0, 0] : Fin 2 → Nat) = fun _ => 0 := funext fun a => by fin_cases a <;> rfl

/-- Point `t` writes back rows `2048 t … 2048 t + 2047` of the layer. -/
theorem flushed_eq (c : Dev nD) (t : Fin cfg0.N) :
    (dats m 0 c).flushed 5 t = ((cfg0.win 5).blk t).view.read (Elt Ideal) (enc (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.Value.flushed5]
  unfold out0_5
  rw [View.canon_unit_zero hz]
  simp only [View.ld_unit_zero (S := S2048x1) hz, View.ld_unit_zero (S := S1x256) hz, View.ld_unit_zero (S := S256x1024) hz,
    View.ld_unit_zero (S := S1x1024) hz]
  funext j
  obtain ⟨p, q, rfl⟩ : ∃ (p : Fin 2048) (q : Fin 1024), j = ix2 (n0 := 2048) (n1 := 1024) p q := ⟨j 0, j 1, eq_ix2 j⟩
  -- the array row that row `p` of block `t` is
  have hN : cfg0.N = 128 := N_0
  obtain ⟨b, hb⟩ : ∃ b : Fin 262144, b.val = t.val * 2048 + p.val :=
    ⟨⟨t.val * 2048 + p.val, by have := t.isLt; omega⟩, rfl⟩
  have hE : ((cfg0.win 5).blk t).view.emb (ix2 (n0 := 2048) (n1 := 1024) p q) = ix2 (n0 := 262144) (n1 := 1024) b q := by
    obtain ⟨-, -, -, -, -, -, -, -, -, -, e0, e1⟩ := idx_facts t
    funext a; apply Fin.ext
    match a with
    | ⟨0, _⟩ => show win0_5.index t (0 : Fin 2) * 2048 + 1 * p.val = b.val; omega
    | ⟨1, _⟩ => show win0_5.index t (1 : Fin 2) * 1024 + 1 * q.val = q.val; omega
  show k0_pay1 (F := Ideal) (iblk m c 0 t) (iblk m c 1 t) (iblk m c 2 t) (iblk m c 3 t) (iblk m c 4 t) (ix2 (n0 := 2048) (n1 := 1024) p q)
    = enc _ _ _ _ _ (((cfg0.win 5).blk t).view.emb (ix2 (n0 := 2048) (n1 := 1024) p q))
  rw [hE]
  refine (Body.pay_at (iblk m c 0 t) (iblk m c 1 t) (iblk m c 2 t) (iblk m c 3 t) (iblk m c 4 t) p q).trans ?_
  unfold enc
  rw [cblk_at m c t q]
  refine congrArg (· + _) (Finset.sum_congr rfl fun r _ => ?_)
  rw [tblk_at m c t p b hb, wblk_at m c t r, bblk_at m c t r, eblk_at m c t r q]

/-! ## The blocks tile the array -/

/-- An index of the result array is in point `t`'s block iff each coordinate is in the block's range on its axis. -/
theorem mem_blk (t : Fin cfg0.N) (i : S262144x1024.Idx) :
    i ∈ ((cfg0.win 5).blk t).view.set ↔ ∀ a : Fin 2, win0_5.index t a * S2048x1024.size a ≤ (i a).val ∧ (i a).val < win0_5.index t a * S2048x1024.size a + S2048x1024.size a := by
  show i ∈ ((View.whole main_v6).slice (win0_5.rect t)).set ↔ _
  rw [View.set_slice_whole, Rect.mem_set_unit]
  exact Iff.rfl

/-- Row `b` of the result is in the block of point `b / 2048`, and every point writes back. -/
theorem cover (i : S262144x1024.Idx) : ∃ t : Fin cfg0.N, (cfg0.win 5).flush t = true ∧ i ∈ ((cfg0.win 5).blk t).view.set := by
  have hN : cfg0.N = 128 := N_0
  have hi0 : (i 0).val < 262144 := (i 0).isLt
  have hi1 : (i 1).val < 1024 := (i 1).isLt
  obtain ⟨t, ht⟩ : ∃ t : Fin cfg0.N, t.val = (i 0).val / 2048 := ⟨⟨(i 0).val / 2048, by omega⟩, rfl⟩
  refine ⟨t, flush0_5 t, ?_⟩
  obtain ⟨-, -, -, -, -, -, -, -, -, -, e0, e1⟩ := idx_facts t
  rw [mem_blk]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 1024 ≤ (i 1).val ∧ (i 1).val < win0_5.index t (1 : Fin 2) * 1024 + 1024; omega

/-! ## The result array, and the run -/

/-- After the last grid point the result array is the layer of the argument arrays. -/
theorem final (c : Dev nD) : (dats m 0 c).arrAt 5 cfg0.N = (enc (m ((c : Thread nD τ).loc main_arg0)) (m ((c : Thread nD τ).loc main_arg1)) (m ((c : Thread nD τ).loc main_arg2)) (m ((c : Thread nD τ).loc main_arg3)) (m ((c : Thread nD τ).loc main_arg4))) :=
  (dats m 0 c).arrAt_eq_of_cover 5 (enc (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m c t) cover

/-- Every weakly fair execution of the idealized kernel ends with the result array at the layer of the arguments,
    the arguments unchanged. -/
theorem run : θ_run defs (onTc (τ := τ) (main (F := Ideal))) ⟨m, fun _ => 0, ρ⟩ fun r => ∀ c : Dev nD,
      r.2.mem ((c : Thread nD τ).loc main_v6) = (enc (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.TimeEncoding.Kernel

end
-- ==== Proof.RefValue.lean ====
/-
  The reference program's result, stage by stage, is the layer `enc` of its argument arrays.

  The reference quantises by a quotient, forms the first linear layer as a matrix product whose contracted axis has
  extent one (a one-term sum), adds the bias broadcast over the batch, takes the cosine and the maximum with zero, and
  forms the second linear layer as a matrix product over the 256 hidden units against the transposed weights, plus the
  bias broadcast over the batch. Read at an index `(b, d)` each stage lands on one entry of each argument array.
-/
import proofs.«104907_j352187318328_1_alg».proof.Proof.Gen.ReferenceIdeal.Read
import proofs.«104907_j352187318328_1_alg».proof.Proof.Spec

noncomputable section

namespace Cert.TimeEncoding.Ref

open Cert.ReferenceIdeal Cert.ReferenceIdeal.Read Idealize.ShloMosaic Idealize.ShloMosaic.ValueIdx Cert.TimeEncoding

theorem ref_eq (x0 : (⟨S262144, .f32⟩ : BufTy).Contents (Elt Ideal)) (x1 : (⟨S256x1, .f32⟩ : BufTy).Contents (Elt Ideal))
    (x2 : (⟨S256, .f32⟩ : BufTy).Contents (Elt Ideal)) (x3 : (⟨S1024x256, .f32⟩ : BufTy).Contents (Elt Ideal))
    (x4 : (⟨S1024, .f32⟩ : BufTy).Contents (Elt Ideal)) :
    val_main_v17 (F := Ideal) x0 x1 x2 x3 x4 = enc x0 x1 x2 x3 x4 := by
  funext i
  rw [val_main_v17_apply, val_main_v14_apply, val_main_v16_apply, val_main_v15_apply]
  unfold enc
  -- the bias entry: column `d` of the bias row
  have eBias : idx_main_v15 (idx_main_v16 i) = ix1 (n := 1024) (i 1) :=
    funext fun a => Fin.ext (by match a with | ⟨0, _⟩ => rfl)
  rw [Ideal.addf_def, eBias]
  refine congrArg (· + x4 (ix1 (n := 1024) (i 1))) (Finset.sum_congr rfl fun k _ => ?_)
  -- the entries of the arguments that hidden unit `k` of row `b` and column `d` of the second layer read
  have eT : idx_main_v5 (lidx_main_v7 (lidx_main_v14 i k) 0) = ix1 (n := 262144) (i 0) :=
    funext fun a => Fin.ext (by match a with | ⟨0, _⟩ => rfl)
  have eW : idx_main_v6 (ridx_main_v7 (lidx_main_v14 i k) 0) = ix2 (n0 := 256) (n1 := 1) k 0 :=
    funext fun a => Fin.ext (by match a with | ⟨0, _⟩ => rfl | ⟨1, _⟩ => rfl)
  have eB : idx_main_v8 (idx_main_v9 (lidx_main_v14 i k)) = ix1 (n := 256) k :=
    funext fun a => Fin.ext (by match a with | ⟨0, _⟩ => rfl)
  have eE : idx_main_v13 (ridx_main_v14 i k) = ix2 (n0 := 1024) (n1 := 256) (i 1) k :=
    funext fun a => Fin.ext (by match a with | ⟨0, _⟩ => rfl | ⟨1, _⟩ => rfl)
  rw [val_main_v13_apply, val_main_v12_apply, val_main_v11_apply, val_main_v10_apply, val_main_v7_apply, Fin.sum_univ_one,
    val_main_v5_apply, val_main_v4_apply, val_main_v2_apply, val_main_v1_apply, val_main_v0_apply, val_main_cst_apply,
    val_main_v3_apply, val_main_cst_0_apply, val_main_v6_apply, val_main_v9_apply, val_main_v8_apply,
    val_main_call0_v0_apply, val_main_call0_cst_apply, eT, eW, eB, eE]
  -- every operation is the exact one on the extended reals; the rectifier's zero word denotes 0
  simp only [Ideal.maximumf_def, Ideal.hostUnary_cos_def, Ideal.addf_def, Ideal.mulf_def, Ideal.hostUnary_floor_def,
    Ideal.hostDivf_def, Ideal.ofBits_def, Ideal.ofBits_zero_f32]
  rfl

end Cert.TimeEncoding.Ref

end
-- ==== Proof.lean ====
/-
  A timestamp-encoding layer computed two ways, equal over the extended reals.

  Both programs take 262144 timestamps `t`, a 1 → 256 linear layer `(wr, br)` and a 256 → 1024 linear layer `(we, be)`
  and return, for row `b` and column `d`,

      (∑ r < 256, max (cos (⌊t b / q⌋ · q · wr (r, 0) + br r)) 0 · we (d, r)) + be d,        q = 13421773 / 2^27,

  where `q` is what the single-precision word 0x3DCCCCCD denotes (Proof/Spec.lean, `enc`).

  The reference divides by `q`, forms the first layer as a matrix product with a contracted axis of extent one, and the
  second as a matrix product against the transposed weights (Proof/RefValue.lean). The kernel works on bands of 2048 rows:
  it MULTIPLIES each timestamp by a constant instead of dividing, forms the first layer as a broadcast outer product, and
  the second on the matrix unit from a zero accumulator with half-width operands, which at the ideal values is the same
  sum (Proof/KernelBody.lean, Proof/KernelValue.lean).

  The one place the two differ is the quantiser. The kernel's multiplier is printed as the word of 10.0; the certificate's
  table names it `"inv_quant"` and reads it as 2^27 / 13421773, the exact reciprocal of `q` (whose nearest single-precision
  number is 10.0). On every extended real the quotient by the nonzero real `q` IS the product with its reciprocal, so the two
  floors agree entry by entry and no finiteness of the inputs is used: the precondition is never opened. `preserves` is the
  table's one entry.
-/
import proofs.«104907_j352187318328_1_alg».proof.Defs
import proofs.«104907_j352187318328_1_alg».proof.Proof.Gen.Kernel
import proofs.«104907_j352187318328_1_alg».proof.Proof.Gen.Kernel.Skeleton
import proofs.«104907_j352187318328_1_alg».proof.Proof.Gen.Kernel.Launch
import proofs.«104907_j352187318328_1_alg».proof.Proof.Gen.Kernel.Points
import proofs.«104907_j352187318328_1_alg».proof.Proof.Gen.Kernel.Frame
import proofs.«104907_j352187318328_1_alg».proof.Proof.Gen.KernelIdeal
import proofs.«104907_j352187318328_1_alg».proof.Proof.Gen.KernelIdeal.Skeleton
import proofs.«104907_j352187318328_1_alg».proof.Proof.Gen.KernelIdeal.Launch
import proofs.«104907_j352187318328_1_alg».proof.Proof.Gen.KernelIdeal.Points
import proofs.«104907_j352187318328_1_alg».proof.Proof.Gen.KernelIdeal.Frame
import proofs.«104907_j352187318328_1_alg».proof.Proof.Gen.ReferenceIdeal
import proofs.«104907_j352187318328_1_alg».proof.Proof.Gen.Pre_finite_inputs
import proofs.«104907_j352187318328_1_alg».proof.Proof.Gen.KernelIdeal.Value
import proofs.«104907_j352187318328_1_alg».proof.Proof.Gen.ReferenceIdeal.Run
import proofs.«104907_j352187318328_1_alg».proof.Proof.Gen.ReferenceIdeal.Read
import proofs.«104907_j352187318328_1_alg».proof.Proof.KernelValue
import proofs.«104907_j352187318328_1_alg».proof.Proof.RefValue
import Idealize.ShloMosaic.Adequacy
import Idealize.ShloMosaic.Init

noncomputable section

namespace Cert.Proof

open Idealize.ShloMosaic Idealize.SL.Sem Cert.TimeEncoding

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The table gives `"inv_quant"` the reciprocal of the quantisation step, and the printed constant is that value. -/
theorem preserves : Cert.preserves_Kernel_KernelIdeal :=
  IdealRules.named_const.statement Cert.KernelIdeal.κ "inv_quant" .f32 0x41200000#32 ((134217728 / 13421773 : ℝ) : EReal) rfl

/-- From memories that agree on the five arguments both programs end with the result array at the layer `enc` of those
    arguments. -/
theorem algebraic : Cert.algebraic_KernelIdeal_ReferenceIdeal := by
  intro m ρ m' ρ' _ hagree
  refine ⟨fun c => enc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.TimeEncoding.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.TimeEncoding.Ref.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
